-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x224x224 : Shape := ⟨4, ![32, 3, 224, 224]⟩
abbrev S_ : Shape := ⟨0, ![]⟩

class Facts : Prop where
  bcast_S_S32x3x224x224 : S_.BroadcastsInDim S32x3x224x224 (![] : Fin 0 → Fin S32x3x224x224.rank)
  reducesTo_S32x3x224x224_S_d0_1_2_3 : S32x3x224x224.ReducesTo [0, 1, 2, 3] S_
  h_S_ : 0 < S_.numel

variable [Facts]

def fn {F : FTy → Type} [FloatOps F] (main_arg0 : FVec F S32x3x224x224 .f32) : IVec S_ 1 :=
  let main_v0 : FVec F S32x3x224x224 .f32 := Host.absf main_arg0
  let main_cst : FVec F S_ .f32 := constant S_ .f32 0x7F800000#32
  let main_v1 : FVec F S32x3x224x224 .f32 := broadcastInDim S32x3x224x224 ![] bcast_S_S32x3x224x224 main_cst
  let main_v2 : IVec S32x3x224x224 1 := cmpf .olt main_v0 main_v1
  let main_c : IVec S_ 1 := constantI S_ 1 1#1
  let main_v3 : IVec S_ 1 := (fun x v => Host.reduce IntOp.andi x v reducesTo_S32x3x224x224_S_d0_1_2_3 h_S_) main_v2 main_c
  main_v3
-- ==== Kernel.lean ====
abbrev S32x3x224x224 : Shape := ⟨4, ![32, 3, 224, 224]⟩
abbrev S32x150528 : Shape := ⟨2, ![32, 150528]⟩
abbrev S32x32 : Shape := ⟨2, ![32, 32]⟩
abbrev S32x37632 : Shape := ⟨2, ![32, 37632]⟩
abbrev S37632x32 : Shape := ⟨2, ![37632, 32]⟩
abbrev S_ : Shape := ⟨0, ![]⟩

abbrev nBuf : Space → Nat
  | .hbm => 19
  | .vmem => 4
  | .smem => 0
  | _ => 0

abbrev bufTy : (tb : Table) → Fin (tcTables nBuf tb) → BufTy
  | .hbm, ⟨0, _⟩ => ⟨S32x3x224x224, .f32⟩
  | .hbm, ⟨1, _⟩ => ⟨S32x150528, .f32⟩
  | .hbm, ⟨2, _⟩ => ⟨S32x32, .f32⟩
  | .hbm, ⟨3, _⟩ => ⟨S_, .f32⟩
  | .hbm, ⟨4, _⟩ => ⟨S32x32, .f32⟩
  | .hbm, ⟨5, _⟩ => ⟨S32x32, .f32⟩
  | .hbm, ⟨6, _⟩ => ⟨S32x32, .i32⟩
  | .hbm, ⟨7, _⟩ => ⟨S32x32, .i32⟩
  | .hbm, ⟨8, _⟩ => ⟨S_, .i32⟩
  | .hbm, ⟨9, _⟩ => ⟨S32x32, .i32⟩
  | .hbm, ⟨10, _⟩ => ⟨S32x32, .i32⟩
  | .hbm, ⟨11, _⟩ => ⟨S32x32, .i1⟩
  | .hbm, ⟨12, _⟩ => ⟨S32x32, .f32⟩
  | .hbm, ⟨13, _⟩ => ⟨S_, .f32⟩
  | .hbm, ⟨14, _⟩ => ⟨S32x32, .f32⟩
  | .hbm, ⟨15, _⟩ => ⟨S32x32, .f32⟩
  | .hbm, ⟨16, _⟩ => ⟨S32x32, .f32⟩
  | .hbm, ⟨17, _⟩ => ⟨S_, .f32⟩
  | .hbm, ⟨18, _⟩ => ⟨S_, .f32⟩
  | .local _ .vmem, ⟨0, _⟩ => ⟨S32x37632, .f32⟩
  | .local _ .vmem, ⟨1, _⟩ => ⟨S32x37632, .f32⟩
  | .local _ .vmem, ⟨2, _⟩ => ⟨S32x32, .f32⟩
  | .local _ .vmem, ⟨3, _⟩ => ⟨S32x32, .f32⟩
  | _, _ => ⟨S32x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v14 : BitVec 1 := Scalar.cmpi .eq arg0 c3_i32
  let v15 : BitVec 32 := Scalar.extui v14
  let c0_i32_6 : BitVec 32 := 0#32
  let v16 : BitVec 1 := Scalar.cmpi .ne v15 c0_i32_6
  v16

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x37632 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  shapeCasts_S32x3x224x224_S32x150528 : S32x3x224x224.ShapeCasts S32x150528
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S32x37632_S32x37632_0_0 : ∀ a, (![0, 0] : Fin 2 → Nat) a + S32x37632.size a ≤ S32x37632.size a
  h_S32x37632 : 0 < S32x37632.numel
  shapeCasts_S32x37632_S32x37632 : S32x37632.ShapeCasts S32x37632
  bitsLt_bf16_f32 : FTy.bits .bf16 < FTy.bits .f32
  transposes_S32x37632_p1_0_S37632x32 : S32x37632.Transposes [1, 0] S37632x32
  bcast_S_S32x32 : S_.BroadcastsInDim S32x32 (![] : Fin 0 → Fin S32x32.rank)
  reducesTo_S32x32_S_d0_1 : S32x32.ReducesTo [0, 1] S_
  h_S_ : 0 < S_.numel
  dot_S32x37632_S37632x32_S32x32_1_0_0_1_n_n_wf : DotDims.WF S32x37632 S37632x32 S32x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x37632.size a ≤ S32x150528.size a
  hwx0_0 : ∀ i : grid0.Coords, EltTy.bits .f32 = 32 ∨ (Rect.block (s := S32x150528) S32x37632.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S32x32.size a
  hwx0_1 : ∀ i : grid0.Coords, EltTy.bits .f32 = 32 ∨ (Rect.block (s := S32x32) S32x32.size (cc0_transform_1 i) (hinb0_1 i)).WholeWords (EltTy.packing .f32)

variable [Facts₀]

def dot_S32x37632_S37632x32_S32x32_1_0_0_1_n_n : DotDims S32x37632 S37632x32 S32x32 where
  lhsContracting := [1]
  rhsContracting := [0]
  lhsNonContracting := [0]
  rhsNonContracting := [1]
  lhsBatch := []
  rhsBatch := []
  wf := dot_S32x37632_S37632x32_S32x32_1_0_0_1_n_n_wf

abbrev win0_0 : Pipeline.Window sig grid0 :=
  Pipeline.Window.ofSpec (Memref.whole main_v0) S32x37632.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x32.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S32x3x224x224 : Shape := ⟨4, ![32, 3, 224, 224]⟩
abbrev S32x150528 : Shape := ⟨2, ![32, 150528]⟩
abbrev S32x32 : Shape := ⟨2, ![32, 32]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S32x3x224x224, .f32⟩
  | .hbm, ⟨1, _⟩ => ⟨S32x150528, .f32⟩
  | .hbm, ⟨2, _⟩ => ⟨S32x150528, .f32⟩
  | .hbm, ⟨3, _⟩ => ⟨S32x32, .f32⟩
  | .hbm, ⟨4, _⟩ => ⟨S_, .f32⟩
  | .hbm, ⟨5, _⟩ => ⟨S32x32, .f32⟩
  | .hbm, ⟨6, _⟩ => ⟨S32x32, .f32⟩
  | .hbm, ⟨7, _⟩ => ⟨S32x32, .i32⟩
  | .hbm, ⟨8, _⟩ => ⟨S32x32, .i32⟩
  | .hbm, ⟨9, _⟩ => ⟨S_, .i32⟩
  | .hbm, ⟨10, _⟩ => ⟨S32x32, .i32⟩
  | .hbm, ⟨11, _⟩ => ⟨S32x32, .i32⟩
  | .hbm, ⟨12, _⟩ => ⟨S32x32, .i1⟩
  | .hbm, ⟨13, _⟩ => ⟨S32x32, .f32⟩
  | .hbm, ⟨14, _⟩ => ⟨S_, .f32⟩
  | .hbm, ⟨15, _⟩ => ⟨S32x32, .f32⟩
  | .hbm, ⟨16, _⟩ => ⟨S32x32, .f32⟩
  | .hbm, ⟨17, _⟩ => ⟨S32x32, .f32⟩
  | .hbm, ⟨18, _⟩ => ⟨S_, .f32⟩
  | .hbm, ⟨19, _⟩ => ⟨S_, .f32⟩
  | _, _ => ⟨S32x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩

abbrev nD : Nat := 1
abbrev τ : Topo := Topo.v7x

variable {F : FTy → Type} [FloatOps F]

class Facts₀ : Prop where
  shapeCasts_S32x3x224x224_S32x150528 : S32x3x224x224.ShapeCasts S32x150528
  bcast_S_S32x32 : S_.BroadcastsInDim S32x32 (![] : Fin 0 → Fin S32x32.rank)
  reducesTo_S32x32_S_d0_1 : S32x32.ReducesTo [0, 1] S_
  h_S_ : 0 < S_.numel
  dot_S32x150528_S32x150528_S32x32_1_1_0_0_n_n_wf : DotDims.WF S32x150528 S32x150528 S32x32 [1] [1] [0] [0] [] []

variable [Facts₀]

def dot_S32x150528_S32x150528_S32x32_1_1_0_0_n_n : DotDims S32x150528 S32x150528 S32x32 where
  lhsContracting := [1]
  rhsContracting := [1]
  lhsNonContracting := [0]
  rhsNonContracting := [0]
  lhsBatch := []
  rhsBatch := []
  wf := dot_S32x150528_S32x150528_S32x32_1_1_0_0_n_n_wf

class Facts : Prop extends Facts₀ where

variable [Facts]
-- ==== Proof.GramPieces.lean ====
/-
  What one run of the body leaves behind, as values.

  The body keeps a 32×32 accumulator in a scratch buffer.  At the first grid point it stores the zero matrix
  there, reads it back, and stores "what it read + this block's product"; at every later point it reads what
  the point before left and stores "that + this block's product".  At the last point it then reads the
  accumulator once more and stores it whole into the output block.  Each of these buffers is written by
  whole-buffer stores, so what a buffer holds afterwards is the payload of the last store into it, with
  every read-back replaced by the payload it reads.
-/
import proofs.«148641_j7164005450196_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.SL.Sem

variable {F : FTy → Type} [FloatOps F]

theorem hz : (![0, 0] : Fin 2 → Nat) = fun _ => 0 := funext fun a => by fin_cases a <;> rfl

/-- First point: the accumulator ends at "zero matrix + this block's product". -/
theorem acc_first (c : Dev nD) (i : grid0.Coords) (a1 : Memref sig .tc .vmem S32x37632 .f32) (h1 : a1.IsWhole)
    (a2 : Memref sig .tc .vmem S32x32 .f32) (h2 : a2.IsWhole) (a3 : Memref sig .tc .vmem S32x32 .f32) (h3 : a3.IsWhole)
    (hc0 : cond0_0 i) (hc1 : ¬cond0_1 i) (x0 : Vec F S32x37632 .f32) :
    sout0_A_0 c i a1 h1 a2 h2 a3 h3 hc0 hc1 x0 = k0_pay2 x0 (k0_pay1 (F := F)) := by
  unfold sout0_A_0
  rw [View.read_writes_eq_canon _ _ _ (scover0_A_0 c i a1 h1 a2 h2 a3 h3 hc0 hc1 x0)]
  unfold kernelRun0_A
  dsimp only
  sl_unfold_words
  rw [View.canon_cons_unit_zero (S := S32x32) hz, View.readCov_unit_zero (S := S32x32) _ hz]
  simp only [View.readAt_eq_ld, h1.read_unread, View.ld_unit_zero (S := S32x37632) hz]

/-- A middle point: the accumulator ends at "what the point before left + this block's product". -/
theorem acc_middle (c : Dev nD) (i : grid0.Coords) (a1 : Memref sig .tc .vmem S32x37632 .f32) (h1 : a1.IsWhole)
    (a2 : Memref sig .tc .vmem S32x32 .f32) (h2 : a2.IsWhole) (a3 : Memref sig .tc .vmem S32x32 .f32) (h3 : a3.IsWhole)
    (hc0 : ¬cond0_0 i) (hc1 : ¬cond0_1 i) (x0 : Vec F S32x37632 .f32) (xs0 : Vec F S32x32 .f32) :
    sout0_B_0 c i a1 h1 a2 h2 a3 h3 hc0 hc1 x0 xs0 = k0_pay2 x0 xs0 := by
  unfold sout0_B_0
  rw [View.read_writes_eq_canon _ _ _ (scover0_B_0 c i a1 h1 a2 h2 a3 h3 hc0 hc1 x0 xs0)]
  unfold kernelRun0_B
  dsimp only
  sl_unfold_words
  rw [View.canon_unit_zero hz]
  simp only [View.readAt_eq_ld, h1.read_unread, h3.read_unread, View.ld_unit_zero (S := S32x37632) hz,
    View.ld_unit_zero (S := S32x32) hz]

/-- The last point: the accumulator again ends at "what the point before left + this block's product", -/
theorem acc_last (c : Dev nD) (i : grid0.Coords) (a1 : Memref sig .tc .vmem S32x37632 .f32) (h1 : a1.IsWhole)
    (a2 : Memref sig .tc .vmem S32x32 .f32) (h2 : a2.IsWhole) (a3 : Memref sig .tc .vmem S32x32 .f32) (h3 : a3.IsWhole)
    (hc0 : ¬cond0_0 i) (hc1 : cond0_1 i) (x0 : Vec F S32x37632 .f32) (xs0 : Vec F S32x32 .f32) :
    sout0_C_0 c i a1 h1 a2 h2 a3 h3 hc0 hc1 x0 xs0 = k0_pay2 x0 xs0 := by
  unfold sout0_C_0
  rw [View.read_writes_eq_canon _ _ _ (scover0_C_0 c i a1 h1 a2 h2 a3 h3 hc0 hc1 x0 xs0)]
  unfold kernelRun0_C
  dsimp only
  sl_unfold_words
  rw [View.canon_unit_zero hz]
  simp only [View.readAt_eq_ld, h1.read_unread, h3.read_unread, View.ld_unit_zero (S := S32x37632) hz,
    View.ld_unit_zero (S := S32x32) hz]

/-- and the output block, stored from a read-back of the accumulator, holds the same matrix. -/
theorem out_last (c : Dev nD) (i : grid0.Coords) (a1 : Memref sig .tc .vmem S32x37632 .f32) (h1 : a1.IsWhole)
    (a2 : Memref sig .tc .vmem S32x32 .f32) (h2 : a2.IsWhole) (a3 : Memref sig .tc .vmem S32x32 .f32) (h3 : a3.IsWhole)
    (hc0 : ¬cond0_0 i) (hc1 : cond0_1 i) (x0 : Vec F S32x37632 .f32) (xs0 : Vec F S32x32 .f32) :
    out0_C_1 c i a1 h1 a2 h2 a3 h3 hc0 hc1 x0 xs0 = k0_pay2 x0 xs0 := by
  unfold out0_C_1
  rw [View.read_writes_eq_canon _ _ _ (cover0_C_1 c i a1 h1 a2 h2 a3 h3 hc0 hc1 x0 xs0)]
  unfold kernelRun0_C
  dsimp only
  sl_unfold_words
  rw [View.canon_unit_zero hz, View.readCov_unit_zero (S := S32x32) _ hz]
  simp only [View.readAt_eq_ld, h1.read_unread, h3.read_unread, View.ld_unit_zero (S := S32x37632) hz,
    View.ld_unit_zero (S := S32x32) hz]

end Cert.KernelIdeal.Pieces

end
-- ==== Proof.LibPlainDot.lean ====
/-
  A plain matrix product read at an entry.

  For the dimension numbers `⟨[1], [0], [0], [1], [], []⟩` (an M×K operand times a K×N operand, no batch axis), the
  product accumulated into a zero array has, at entry (p, q), the value Σ_k lhs (p, k) · rhs (k, q) on the extended
  reals: no rounding and no order of summation is left in it. The statement is generic in the three extents and in the
  operands' float formats (a change of format is the identity on the extended reals), so it serves every plain product
  of a kernel body; a printed dimension record with these six lists IS `DotDims.plain M K N` (its well-formedness
  proof is a proposition), so the lemma applies to it as it stands.
-/
import Idealize.ShloMosaic.PureOps.Ideal.Laws
import Idealize.ShloMosaic.Lib.ValueIdx

namespace Idealize.ShloMosaic.PlainDot

open Idealize.ShloMosaic Idealize.ShloMosaic.ValueIdx

/-- The left operand's row coordinate at output entry `i` is `i`'s row. -/
theorem lhs_row (M K N : Nat) (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The left operand's column coordinate is the contraction index. -/
theorem lhs_col (M K N : Nat) (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- The right operand's row coordinate is the contraction index. -/
theorem rhs_row (M K N : Nat) (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- The right operand's column coordinate at output entry `i` is `i`'s column. -/
theorem rhs_col (M K N : Nat) (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- A plain M×K by K×N product into the zero array, at entry (p, q), is `Σ_k lhs (p, k) · rhs (k, q)`. -/
theorem matmul_zero_apply {φ₁ φ₂ : FTy} (M K N : Nat) (lhs : FVec Ideal ⟨2, ![M, K]⟩ φ₁) (rhs : FVec Ideal ⟨2, ![K, N]⟩ φ₂)
    (p : Fin M) (q : Fin N) :
    FloatOps.matmul (DotDims.plain M K N) none lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row M K N _ _).trans hk
      | ⟨1, _⟩ => exact rhs_col M K N _ _)
  rw [el, er]

end Idealize.ShloMosaic.PlainDot
-- ==== Proof.GramSpec.lean ====
/-
  The Gram matrix of the squared rows, and its splitting along the contracted axis.

  For x : [32, 150528] over the extended reals, the matrix gram x (b, c) = Σ_d x(b,d)² · x(c,d)².
  The contracted axis of length 150528 = 4 · 37632 is cut into four consecutive blocks of columns:
  column j of block k is column k · 37632 + j of x.  Summing the four blocks' own Gram matrices one after the
  other gives the whole matrix: a finite sum over a product index set is the iterated sum, and the
  extended reals are a commutative monoid under addition, so no finiteness of the entries is needed.
-/
import Idealize.ShloMosaic.PureOps.Ideal.Laws
import Idealize.ShloMosaic.Lib.ValueIdx
import Mathlib.Algebra.BigOperators.Fin
import Mathlib.Logic.Equiv.Fin.Basic

noncomputable section

namespace Cert.GramSpec

open Idealize.ShloMosaic Idealize.ShloMosaic.ValueIdx

/-- The flattened input's shape, one block of its columns, and the Gram matrix's shape. -/
abbrev SX : Shape := ⟨2, ![32, 150528]⟩
abbrev SB : Shape := ⟨2, ![32, 37632]⟩
abbrev SG : Shape := ⟨2, ![32, 32]⟩

/-- One term of entry `i = (b, c)`: x(b,d)² · x(c,d)². -/
def term (x : SX.Idx → EReal) (i : SG.Idx) (d : Fin 150528) : EReal :=
  (x (ix2 (i 0) d) * x (ix2 (i 0) d)) * (x (ix2 (i 1) d) * x (ix2 (i 1) d))

/-- The Gram matrix of the squared rows. -/
def gram (x : SX.Idx → EReal) : SG.Idx → EReal := fun i => ∑ d : Fin 150528, term x i d

/-- Column `j` of block `k` (the block number taken modulo four, so that it is a column for every `k`). -/
def col (k : ℕ) (j : Fin 37632) : Fin 150528 :=
  ⟨(k % 4) * 37632 + j.val, by have := j.isLt; have := Nat.mod_lt k (by decide : 0 < 4); omega⟩

/-- Block `k` of the columns of `x`. -/
def blockOf (x : SX.Idx → EReal) (k : ℕ) : SB.Idx → EReal := fun y => x (ix2 (y 0) (col k (y 1)))

/-- The Gram matrix of the squared rows of one block. -/
def blockGram (y : SB.Idx → EReal) : SG.Idx → EReal := fun i =>
  ∑ j : Fin 37632, (y (ix2 (i 0) j) * y (ix2 (i 0) j)) * (y (ix2 (i 1) j) * y (ix2 (i 1) j))

/-- The first `n` blocks' Gram matrices, summed. -/
def partialGram (x : SX.Idx → EReal) (n : ℕ) : SG.Idx → EReal := fun i =>
  ∑ k ∈ Finset.range n, blockGram (blockOf x k) i

theorem partialGram_zero (x : SX.Idx → EReal) (i : SG.Idx) : partialGram x 0 i = 0 := by
  unfold partialGram; rw [Finset.range_zero, Finset.sum_empty]

theorem partialGram_succ (x : SX.Idx → EReal) (n : ℕ) (i : SG.Idx) :
    partialGram x (n + 1) i = partialGram x n i + blockGram (blockOf x n) i := by
  unfold partialGram; rw [Finset.sum_range_succ]

/-- Column `j` of block `k < 4` is the column the pair (k, j) names in the product order. -/
theorem col_eq (p : Fin 4 × Fin 37632) :
    col p.1.val p.2 = (finProdFinEquiv : Fin 4 × Fin 37632 ≃ Fin 150528) p := by
  apply Fin.ext
  have h1 : p.1.val % 4 = p.1.val := Nat.mod_eq_of_lt p.1.isLt
  show (p.1.val % 4) * 37632 + p.2.val = ((finProdFinEquiv : Fin 4 × Fin 37632 ≃ Fin (4 * 37632)) p).val
  rw [finProdFinEquiv_apply_val, h1]
  omega

/-- All four blocks together are the whole matrix. -/
theorem partialGram_four (x : SX.Idx → EReal) : partialGram x 4 = gram x := by
  funext i
  unfold partialGram gram
  rw [Finset.sum_range (fun k => blockGram (blockOf x k) i)]
  rw [← Equiv.sum_comp (finProdFinEquiv : Fin 4 × Fin 37632 ≃ Fin 150528) (term x i), Fintype.sum_prod_type]
  refine Finset.sum_congr rfl fun k _ => ?_
  unfold blockGram
  refine Finset.sum_congr rfl fun j _ => ?_
  rw [← col_eq (k, j)]
  rfl

end Cert.GramSpec

end
-- ==== Proof.GramPayload.lean ====
/-
  The body's arithmetic at one entry, over the extended reals.

  The reset stores the zero matrix.  The update squares the loaded block x (32 × 37632) entrywise, narrows the
  squares to a shorter float format (the identity on the extended reals), multiplies the result by its own
  transpose into a zero matrix and adds what the accumulator held: at entry (p, q) that is
  acc(p,q) + Σ_j x(p,j)² · x(q,j)², the Gram matrix of the block's squared rows.
-/
import proofs.«148641_j7164005450196_1_alg».proof.Proof.Gen.KernelIdeal.Skeleton
import proofs.«148641_j7164005450196_1_alg».proof.Proof.LibPlainDot
import proofs.«148641_j7164005450196_1_alg».proof.Proof.GramSpec
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Cert.GramSpec
open Idealize.ShloMosaic Idealize.ShloMosaic.ValueIdx

/-- The reset's payload is the zero matrix. -/
theorem reset_apply (i : S32x32.Idx) : k0_pay1 (F := Ideal) i = 0 := by
  unfold k0_pay1
  simp only [shapeCast_self]
  show Ideal.ofBits .f32 0x00000000#32 = 0
  exact Ideal.ofBits_zero_f32

/-- The transposed squares at (j, q) are the squares at (q, j). -/
theorem transposed_apply (y : FVec Ideal S32x37632 .bf16) (j : Fin 37632) (q : Fin 32) :
    transpose S37632x32 [1, 0] y transposes_S32x37632_p1_0_S37632x32 (ix2 j q) = y (ix2 q j) :=
  transpose_apply [1, 0] y transposes_S32x37632_p1_0_S37632x32 (ix2 j q) (ix2 q j)
    (fun b => by match b with | ⟨0, _⟩ => rfl | ⟨1, _⟩ => rfl)

/-- The update's payload at an entry: what the accumulator held plus the block's Gram entry. -/
theorem update_apply (x0 : Vec Ideal S32x37632 .f32) (xs : Vec Ideal S32x32 .f32) (i : S32x32.Idx) :
    k0_pay2 x0 xs i = xs i + blockGram x0 i := by
  obtain ⟨p, q, rfl⟩ : ∃ (p q : Fin 32), i = ix2 p q := ⟨i 0, i 1, eq_ix2 i⟩
  unfold k0_pay2
  simp only [shapeCast_self]
  refine congrArg (xs (ix2 p q) + ·) ((Idealize.ShloMosaic.PlainDot.matmul_zero_apply 32 37632 32 _ _ p q).trans ?_)
  unfold blockGram
  refine Finset.sum_congr rfl fun j _ => ?_
  refine congrArg (_ * ·) ((transposed_apply _ j q).trans ?_)
  rfl

end Cert.KernelIdeal.Payload

end
-- ==== Proof.GramInvariant.lean ====
/-
  The accumulator after each grid point, and the output block after the last.

  The grid has four points; point t loads columns t · 37632 … (t+1) · 37632 − 1 of the flattened input.  By
  induction on the point, the accumulator after point n is the sum of the Gram matrices of blocks 0 … n: the first
  point leaves 0 + (block 0's matrix), each later point adds its own block's matrix to what it found.  The last
  point copies the accumulator into the output block, which therefore holds all four blocks' matrices summed —
  the Gram matrix of the whole input's squared rows.
-/
import proofs.«148641_j7164005450196_1_alg».proof.Proof.Gen.KernelIdeal.Frame
import proofs.«148641_j7164005450196_1_alg».proof.Proof.GramPieces
import proofs.«148641_j7164005450196_1_alg».proof.Proof.GramPayload
import proofs.«148641_j7164005450196_1_alg».proof.Proof.GramSpec
import Idealize.ShloMosaic.Lib.Pipeline.Value
import Idealize.ShloMosaic.Lib.ValueIdx

noncomputable section

namespace Cert.KernelIdeal.GramValue

open Cert.KernelIdeal Cert.KernelIdeal.Gen Cert.GramSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The flattened input as the region finds it. -/
abbrev xarr (c : Dev nD) : Vec Ideal S32x150528 .f32 := V m c main_v0
/-- The block of its columns the window holds at point `t`. -/
abbrev xblk (c : Dev nD) (t : Fin cfg0.N) : Vec Ideal S32x37632 .f32 := iblk m c 0 t

/-- The window's block index at point `t` is (0, t). -/
theorem index_facts : ∀ t : Fin cfg0.N, win0_0.index t (0 : Fin 2) = 0 ∧ win0_0.index t (1 : Fin 2) = t.val :=
  (by decide +kernel : ∀ t : Fin grid0.N, win0_0.index t (0 : Fin 2) = 0 ∧ win0_0.index t (1 : Fin 2) = t.val)

/-- The block at point `t` is block `t` of the input's columns. -/
theorem xblk_eq (c : Dev nD) (t : Fin cfg0.N) : xblk m c t = blockOf (xarr m c) t.val := by
  have hN : t.val < 4 := lt_of_lt_of_eq t.isLt (show cfg0.N = 4 from N_0)
  have hi := index_facts t
  funext y
  show iblk m c 0 t y = V m c main_v0 (ix2 (y 0) (col t.val (y 1)))
  unfold iblk
  rw [View.read_apply]
  show V m c main_v0 _ = V m c main_v0 _
  congr 1
  funext a
  apply Fin.ext
  match a with
  | ⟨0, _⟩ => show win0_0.index t 0 * 32 + 1 * (y 0).val = (y 0).val; rw [hi.1]; omega
  | ⟨1, _⟩ =>
    show win0_0.index t 1 * 37632 + 1 * (y 1).val = (t.val % 4) * 37632 + (y 1).val
    rw [hi.2, Nat.mod_eq_of_lt hN]; omega

/-- One update: over the first `k` blocks' sum, the body at point `k` leaves the first `k + 1` blocks' sum. -/
theorem update_eq (c : Dev nD) (t : Fin cfg0.N) (xs : Vec Ideal S32x32 .f32) (hxs : xs = partialGram (xarr m c) t.val) :
    k0_pay2 (iblk m c 0 t) xs = partialGram (xarr m c) (t.val + 1) := by
  funext i
  rw [Payload.update_apply, hxs, partialGram_succ (xarr m c) t.val]
  exact congrArg (fun y => partialGram (xarr m c) t.val i + blockGram y i) (xblk_eq m c t)

/-- The reset's matrix is the empty sum. -/
theorem reset_eq (c : Dev nD) : (k0_pay1 (F := Ideal) : Vec Ideal S32x32 .f32) = partialGram (xarr m c) 0 := by
  funext i
  rw [Payload.reset_apply, partialGram_zero]

/-- The accumulator after point `n` is the sum of the first `n + 1` blocks' Gram matrices. -/
theorem acc_eq (c : Dev nD) : ∀ (n : ℕ) (h : n < cfg0.N), (outsAt0 m c n h).2 = partialGram (xarr m c) (n + 1)
  | 0, h => by
    rw [outsAt0_A m c ⟨0, h⟩ rfl (by dsimp only; omega)]
    dsimp only
    exact (Pieces.acc_first (F := Ideal) c (grid0.coords ⟨0, h⟩) (ms0_0 ⟨0, h⟩) (hs0_0 ⟨0, h⟩) (ms0_1 ⟨0, h⟩) (hs0_1 ⟨0, h⟩) scM0_0
      (Memref.isWhole_whole _) _ _ (iblk m c 0 ⟨0, h⟩)).trans (update_eq m c ⟨0, h⟩ _ (reset_eq m c))
  | n + 1, h => by
    have hN : cfg0.N = 4 := N_0
    have h0 : ¬(⟨n + 1, h⟩ : Fin cfg0.N).val % 4 = 0 := by dsimp only; omega
    have ih := acc_eq c n (Nat.lt_of_succ_lt h)
    by_cases h1 : (⟨n + 1, h⟩ : Fin cfg0.N).val % 4 = 3
    · rw [outsAt0_C m c ⟨n + 1, h⟩ h0 h1]
      dsimp only
      exact (Pieces.acc_last (F := Ideal) c (grid0.coords ⟨n + 1, h⟩) (ms0_0 ⟨n + 1, h⟩) (hs0_0 ⟨n + 1, h⟩) (ms0_1 ⟨n + 1, h⟩) (hs0_1 ⟨n + 1, h⟩) scM0_0
        (Memref.isWhole_whole _) _ _ (iblk m c 0 ⟨n + 1, h⟩) _).trans (update_eq m c ⟨n + 1, h⟩ _ ih)
    · rw [outsAt0_B m c ⟨n + 1, h⟩ h0 h1]
      dsimp only
      exact (Pieces.acc_middle (F := Ideal) c (grid0.coords ⟨n + 1, h⟩) (ms0_0 ⟨n + 1, h⟩) (hs0_0 ⟨n + 1, h⟩) (ms0_1 ⟨n + 1, h⟩) (hs0_1 ⟨n + 1, h⟩) scM0_0
        (Memref.isWhole_whole _) _ _ (iblk m c 0 ⟨n + 1, h⟩) _).trans (update_eq m c ⟨n + 1, h⟩ _ ih)

/-- The output block after the last point is the Gram matrix of the whole input's squared rows. -/
theorem out_eq (c : Dev nD) (h : 3 < cfg0.N) : (outsAt0 m c 3 h).1 = gram (xarr m c) := by
  rw [outsAt0_C m c ⟨3, h⟩ (by dsimp only; omega) (by dsimp only)]
  dsimp only
  rw [← partialGram_four]
  exact (Pieces.out_last (F := Ideal) c (grid0.coords ⟨3, h⟩) (ms0_0 ⟨3, h⟩) (hs0_0 ⟨3, h⟩) (ms0_1 ⟨3, h⟩) (hs0_1 ⟨3, h⟩) scM0_0
    (Memref.isWhole_whole _) _ _ (iblk m c 0 ⟨3, h⟩) _).trans (update_eq m c ⟨3, h⟩ _ (acc_eq m c 2 (Nat.lt_of_succ_lt h)))

end Cert.KernelIdeal.GramValue

end
-- ==== Proof.GramTail.lean ====
/-
  What both programs do to the 32×32 Gram matrix afterwards.

  Every entry is divided by 150528 (the length of the contracted axis), multiplied by 1 − [row = column] (which
  removes the diagonal), and all 1024 entries are summed from zero.  The two programs spell this with the same
  operations on the same literals, so it is kept as ONE function of the matrix and never opened: equal
  matrices give equal results.
-/
import Idealize.ShloMosaic.PureOps
import Idealize.ShloMosaic.PureOps.Ideal

noncomputable section

namespace Cert.GramSpec

open Idealize.ShloMosaic

/-- The common tail: mean over the contracted axis, diagonal removed, everything summed. -/
def hostTail (hb : (⟨0, ![]⟩ : Shape).BroadcastsInDim ⟨2, ![32, 32]⟩ (![] : Fin 0 → Fin (⟨2, ![32, 32]⟩ : Shape).rank))
    (hr : (⟨2, ![32, 32]⟩ : Shape).ReducesTo [0, 1] ⟨0, ![]⟩) (h0 : 0 < (⟨0, ![]⟩ : Shape).numel)
    (g : FVec Ideal ⟨2, ![32, 32]⟩ .f32) : FVec Ideal ⟨0, ![]⟩ .f32 :=
  Host.reduceAdd (F := Ideal)
    (mulf (F := Ideal)
      (Host.divf (F := Ideal) g (broadcastInDim ⟨2, ![32, 32]⟩ ![] hb (constant (F := Ideal) ⟨0, ![]⟩ .f32 0x48130000#32)))
      (subf (F := Ideal) (broadcastInDim ⟨2, ![32, 32]⟩ ![] hb (constant (F := Ideal) ⟨0, ![]⟩ .f32 0x3F800000#32))
        (uitofp (F := Ideal) .f32
          (cmpi .eq (addi (iotaInDim ⟨2, ![32, 32]⟩ 32 0) (broadcastInDim ⟨2, ![32, 32]⟩ ![] hb (constantI ⟨0, ![]⟩ 32 0#32)))
            (iotaInDim ⟨2, ![32, 32]⟩ 32 1)))))
    (constant (F := Ideal) ⟨0, ![]⟩ .f32 0x00000000#32) hr h0

end Cert.GramSpec

end
-- ==== Proof.GramFinal.lean ====
/-
  From the output block to the program's result.

  The output's block index never moves, so its one block — the whole 32×32 array — is written back once, after
  the last grid point, holding the Gram matrix of the flattened input's squared rows.  The host operations after
  the region then apply the common tail to that array.  The flattened input itself is the argument reshaped by the
  one host operation before the region.
-/
import proofs.«148641_j7164005450196_1_alg».proof.Proof.GramInvariant
import proofs.«148641_j7164005450196_1_alg».proof.Proof.GramTail
import Idealize.ShloMosaic.Lib.Pipeline.Value
import Idealize.ShloMosaic.Lib.StableHlo.Run
import Idealize.ShloMosaic.Lib.Tactic

noncomputable section

namespace Cert.KernelIdeal.GramValue

open Cert.KernelIdeal Cert.KernelIdeal.Gen Cert.GramSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The Gram matrix, as contents of the region's result array. -/
abbrev result (c : Dev nD) : Buf (Elt Ideal) ((c : Thread nD τ).loc main_v1) := gram (xarr m c)

/-- The output window's block at the last point starts at the origin and is the whole array. -/
theorem out_block_facts : ∀ a : Fin 2,
    win0_1.index t0_3 a * win0_1.size a = 0 ∧ win0_1.xsize (grid0.coords t0_3) a = 32 := by decide +kernel

/-- The one write-back, after the last point, writes the Gram matrix. -/
theorem flushed_eq (c : Dev nD) (t : Fin cfg0.N) (hf : (cfg0.win 1).flush t = true) :
    (dats m 0 c).flushed 1 t = ((cfg0.win 1).blk t).view.read (Elt Ideal) (result m c) := by
  have hN : cfg0.N = 4 := N_0
  have h3 : t.val = 3 := by have := (flush0_1 t).mp hf; have := t.isLt; omega
  obtain rfl : t = t0_3 := Fin.ext h3
  show (cfg0.win 1).cut (grid0.coords t0_3) ((dats m 0 c).after 1 t0_3) = _
  rw [after0_1, show (outsAt0 m c t0_3.val t0_3.isLt).1 = result m c from out_eq m c t0_3.isLt]
  have hz' : (fun a => win0_1.index t0_3 a * main_v1.ty.shape.size a) = fun _ => 0 :=
    funext fun a => (out_block_facts a).1
  exact (Memref.read_access_unit_zero (Elt Ideal) main_v1 hz' (fun a => by rw [congrFun hz' a]; simp) (result m c)).symm

/-- So the region's result array ends holding the Gram matrix: the last point's block covers it. -/
theorem final_eq (c : Dev nD) : (dats m 0 c).arrAt 1 cfg0.N = result m c :=
  (dats m 0 c).arrAt_eq_of_cover 1 (result m c) (flushed_eq m c) fun i =>
    ⟨t0_3, (flush0_1 t0_3).mpr rfl, by
      show i ∈ ((View.whole main_v1).slice (win0_1.rect t0_3)).set
      rw [View.set_slice_whole, Rect.mem_set_unit]
      intro a
      have hlt : (i a : Nat) < 32 := by
        match a with
        | ⟨0, _⟩ => exact (i _).isLt
        | ⟨1, _⟩ => exact (i _).isLt
      show win0_1.index t0_3 a * win0_1.size a ≤ (i a : Nat)
        ∧ (i a : Nat) < win0_1.index t0_3 a * win0_1.size a + win0_1.xsize (grid0.coords t0_3) a
      rw [(out_block_facts a).1, (out_block_facts a).2]
      omega⟩

/-- The flattened input the region finds is the argument, reshaped. -/
theorem xarr_eq (c : Dev nD) :
    xarr m c = shapeCast S32x150528 (m ((c : Thread nD τ).loc main_arg0)) shapeCasts_S32x3x224x224_S32x150528 := by
  show StableHlo.after hostOps0 (fun b => m (c, b)) (Proc.devRef .tc main_v0) = _
  after_results
  rfl

/-- The program's result: the common tail of the Gram matrix. -/
theorem tail_eq (c : Dev nD) :
    Pipeline.afterTail₀ cfgs (dats m) 0 (V0 m) [hostOps1] c main_v13
      = hostTail bcast_S_S32x32 reducesTo_S32x32_S_d0_1 h_S_ (result m c) := by
  unfold Pipeline.afterTail₀
  show StableHlo.after hostOps1 _ (Proc.devRef .tc main_v13) = _
  after_results
  rw [(Pipeline.withArrays_arr spec0 launch0.win.arr_inj c _ _ 1).trans (final_eq m c)]
  rfl

/-- The run, read: the result buffer at the tail of the Gram matrix, the argument unchanged. -/
theorem run : θ_run defs (onTc (τ := τ) (main (F := Ideal))) ⟨m, fun _ => 0, ρ⟩ fun r => ∀ c : Dev nD,
      r.2.mem ((c : Thread nD τ).loc main_v13) = hostTail bcast_S_S32x32 reducesTo_S32x32_S_d0_1 h_S_ (result m c)
      ∧ r.2.mem ((c : Thread nD τ).loc main_arg0) = m ((c : Thread nD τ).loc main_arg0) :=
  (θ_run defs _ _).mono (fun _ h c =>
      ⟨((h c).2 main_v13 (Pipeline.mem_restRefs_of main_v13 (by decide) (by decide))).trans (tail_eq m c),
       ((h c).2 main_arg0 (Pipeline.mem_restRefs_of main_arg0 (by decide) (by decide))).trans (W_main_arg0 m (dats m) c)⟩)
    (run_main m ρ)

end Cert.KernelIdeal.GramValue

end
-- ==== Proof.GramRef.lean ====
/-
  The reference read back.

  The reference flattens the input to x : [32, 150528], squares it entrywise, contracts the squares with
  themselves along the long axis — entry (b, c) is Σ_d x(b,d)² · x(c,d)², the Gram matrix of the squared rows —
  and then applies the common tail (divide by 150528, remove the diagonal, sum everything).
-/
import proofs.«148641_j7164005450196_1_alg».proof.Proof.Gen.ReferenceIdeal.Read
import proofs.«148641_j7164005450196_1_alg».proof.Proof.GramSpec
import proofs.«148641_j7164005450196_1_alg».proof.Proof.GramTail

noncomputable section

namespace Cert.ReferenceIdeal.RefValue

open Cert.ReferenceIdeal Cert.ReferenceIdeal.Gen Cert.ReferenceIdeal.Read Cert.GramSpec
open Idealize.ShloMosaic Idealize.ShloMosaic.ValueIdx

/-- The contraction reads the left operand at row b, the right operand at row c, both at column d. -/
theorem lidx_eq (i : S32x32.Idx) (k : Fin 150528) : lidx_main_v2 i k = ix2 (i 0) k :=
  funext fun a => by match a with | ⟨0, _⟩ => rfl | ⟨1, _⟩ => rfl
theorem ridx_eq (i : S32x32.Idx) (k : Fin 150528) : ridx_main_v2 i k = ix2 (i 1) k :=
  funext fun a => by match a with | ⟨0, _⟩ => rfl | ⟨1, _⟩ => rfl

/-- The reference's contraction is the Gram matrix of the flattened input's squared rows. -/
theorem gram_eq (x0 : (⟨S32x3x224x224, .f32⟩ : BufTy).Contents (Elt Ideal)) :
    val_main_v2 (F := Ideal) x0 = gram (val_main_v0 (F := Ideal) x0) := by
  funext i
  rw [val_main_v2_apply]
  unfold gram
  refine Finset.sum_congr rfl fun k _ => ?_
  rw [lidx_eq, ridx_eq]
  rfl

/-- The reference's result is the common tail of that matrix. -/
theorem result_eq (x0 : (⟨S32x3x224x224, .f32⟩ : BufTy).Contents (Elt Ideal)) :
    val_main_v14 (F := Ideal) x0
      = hostTail bcast_S_S32x32 reducesTo_S32x32_S_d0_1 h_S_ (gram (val_main_v0 (F := Ideal) x0)) := by
  rw [← gram_eq]
  rfl

end Cert.ReferenceIdeal.RefValue

end
-- ==== Proof.lean ====
/-
  The kernel's entry point against its jnp reference, over the extended reals.

  Both programs compute, from tensor : [32, 3, 224, 224] flattened to x : [32, 150528],

      Σ_{b ≠ c} ( Σ_d x(b,d)² · x(c,d)² ) / 150528 ,

  spelled as: the Gram matrix G of the squared rows, divided entrywise by 150528, multiplied entrywise by
  1 − [row = column], and summed over all 1024 entries.  The reference forms G in one contraction over the
  axis of length 150528.  The kernel walks that axis in four blocks of 37632 columns: at each grid point it
  squares the block, narrows the squares to a shorter float format (the identity on the extended reals),
  multiplies the result by its own transpose, and adds that 32×32 product to an accumulator it zeroed at the first
  point; after the fourth point it copies the accumulator to its output, and the host operations after it
  apply the same division, mask and sum as the reference.

  The two agree because a finite sum over 150528 = 4 · 37632 columns is the sum over the four blocks of the
  blocks' own sums, added one block after the other: addition of extended reals is commutative and
  associative, so this regrouping holds whatever the entries are, and the precondition (finite inputs) is never
  opened.  The tail after G is one function of G on both sides and is never unfolded.

  The three programs' runs (termination, no fault, arguments unchanged) are the generated frames; the
  idealization rewrote no operation, so there is nothing to preserve.
-/
import proofs.«148641_j7164005450196_1_alg».proof.Defs
import proofs.«148641_j7164005450196_1_alg».proof.Proof.Gen.Kernel
import proofs.«148641_j7164005450196_1_alg».proof.Proof.Gen.Kernel.Frame
import proofs.«148641_j7164005450196_1_alg».proof.Proof.Gen.KernelIdeal
import proofs.«148641_j7164005450196_1_alg».proof.Proof.Gen.KernelIdeal.Frame
import proofs.«148641_j7164005450196_1_alg».proof.Proof.Gen.ReferenceIdeal
import proofs.«148641_j7164005450196_1_alg».proof.Proof.Gen.ReferenceIdeal.Run
import proofs.«148641_j7164005450196_1_alg».proof.Proof.Gen.ReferenceIdeal.Read
import proofs.«148641_j7164005450196_1_alg».proof.Proof.Gen.Pre_finite_inputs
import proofs.«148641_j7164005450196_1_alg».proof.Proof.GramFinal
import proofs.«148641_j7164005450196_1_alg».proof.Proof.GramRef
import Idealize.ShloMosaic.Adequacy
import Idealize.ShloMosaic.Init

noncomputable section

namespace Cert.Proof

open Idealize.ShloMosaic Idealize.SL.Sem

/-- Each program runs to the end without a fault and leaves its argument as it found it. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- Over the extended reals the kernel's result is the common tail of the Gram matrix accumulated block by
    block, the reference's the common tail of the Gram matrix contracted at once, of the same flattened input:
    the same number. -/
theorem algebraic : Cert.algebraic_KernelIdeal_ReferenceIdeal := by
  intro m ρ m' ρ' _ hagree
  refine ⟨_, Cert.KernelIdeal.GramValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.result_eq, hagree c]
  show _ = Cert.GramSpec.hostTail _ _ _ (Cert.GramSpec.gram (Cert.KernelIdeal.GramValue.xarr m c))
  rw [Cert.KernelIdeal.GramValue.xarr_eq]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
